-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S16x1024 .f32) (main_arg6 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S4x4096x1024 .f32) (main_arg1 : FVec F S3072x1024 .f32) (main_arg2 : FVec F S3072 .f32) (main_arg3 : FVec F S16x1024 .f32) (main_arg4 : FVec F S1024x16 .f32) (main_arg5 : FVec F S16x1024 .f32) (main_arg6 : FVec F S1024x16 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_arg5 main_arg6 main_v13 main_v16
-- ==== Kernel.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S16384x1024 : Shape := ⟨2, ![16384, 1024]⟩
abbrev S16384x3072 : Shape := ⟨2, ![16384, 3072]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x16 : Shape := ⟨2, ![2048, 16]⟩
abbrev S4x4096x3072 : Shape := ⟨3, ![4, 4096, 3072]⟩

abbrev nBuf : Space → Nat
  | .hbm => 16
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S16384x1024, .f32⟩
  | .hbm, ⟨8, _⟩ => ⟨S16384x1024, .bf16⟩
  | .hbm, ⟨9, _⟩ => ⟨S3072x1024, .bf16⟩
  | .hbm, ⟨10, _⟩ => ⟨S16x1024, .bf16⟩
  | .hbm, ⟨11, _⟩ => ⟨S1024x16, .bf16⟩
  | .hbm, ⟨12, _⟩ => ⟨S16x1024, .bf16⟩
  | .hbm, ⟨13, _⟩ => ⟨S1024x16, .bf16⟩
  | .hbm, ⟨14, _⟩ => ⟨S16384x3072, .f32⟩
  | .hbm, ⟨15, _⟩ => ⟨S4x4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S16x1024, .bf16⟩
  | .local _ .vmem, ⟨7, _⟩ => ⟨S1024x16, .bf16⟩
  | .local _ .vmem, ⟨8, _⟩ => ⟨S16x1024, .bf16⟩
  | .local _ .vmem, ⟨9, _⟩ => ⟨S1024x16, .bf16⟩
  | .local _ .vmem, ⟨10, _⟩ => ⟨S2048x1024, .f32⟩
  | .local _ .vmem, ⟨11, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_4 : BitVec 32 := 0#32
  let v12 : BitVec 1 := Scalar.cmpi .ne v11 c0_i32_4
  v12

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_5 : BitVec 32 := 0#32
  let v15 : BitVec 1 := Scalar.cmpi .ne v14 c0_i32_5
  v15

def k0_cond3 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4x4096x1024_S16384x1024 : S4x4096x1024.ShapeCasts S16384x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  transposes_S16x1024_p1_0_S1024x16 : S16x1024.Transposes [1, 0] S1024x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  transposes_S1024x16_p1_0_S16x1024 : S1024x16.Transposes [1, 0] S16x1024
  shapeCasts_S16384x3072_S4x4096x3072 : S16384x3072.ShapeCasts S4x4096x3072
  dot_S2048x1024_S1024x1024_S2048x1024_1_0_0_1_n_n_wf : DotDims.WF S2048x1024 S1024x1024 S2048x1024 [1] [0] [0] [1] [] []
  dot_S2048x1024_S1024x16_S2048x16_1_0_0_1_n_n_wf : DotDims.WF S2048x1024 S1024x16 S2048x16 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .bf16 = 32 ∨ (Rect.block (s := S3072x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S3072.size a
  hwx0_2 : ∀ i : grid0.Coords, EltTy.bits .f32 = 32 ∨ (Rect.block (s := S3072) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S1024x16.size a
  hwx0_4 : ∀ i : grid0.Coords, EltTy.bits .bf16 = 32 ∨ (Rect.block (s := S1024x16) S1024x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S16x1024.size a
  hwx0_5 : ∀ i : grid0.Coords, EltTy.bits .bf16 = 32 ∨ (Rect.block (s := S16x1024) S16x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x16.size a ≤ S1024x16.size a
  hwx0_6 : ∀ i : grid0.Coords, EltTy.bits .bf16 = 32 ∨ (Rect.block (s := S1024x16) S1024x16.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S16384x3072.size a
  hwx0_7 : ∀ i : grid0.Coords, EltTy.bits .f32 = 32 ∨ (Rect.block (s := S16384x3072) S2048x1024.size (cc0_transform_7 i) (hinb0_7 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x16_S2048x16_1_0_0_1_n_n : DotDims S2048x1024 S1024x16 S2048x16 where
  lhsContracting := [1]
  rhsContracting := [0]
  lhsNonContracting := [0]
  rhsNonContracting := [1]
  lhsBatch := []
  rhsBatch := []
  wf := dot_S2048x1024_S1024x16_S2048x16_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) && !(k0_cond3 i == 1#1) | ⟨_ + 8, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S3072 : Shape := ⟨1, ![3072]⟩
abbrev S16x1024 : Shape := ⟨2, ![16, 1024]⟩
abbrev S1024x16 : Shape := ⟨2, ![1024, 16]⟩
abbrev S4x4096x3072 : Shape := ⟨3, ![4, 4096, 3072]⟩
abbrev S1x1x3072 : Shape := ⟨3, ![1, 1, 3072]⟩
abbrev S4x4096x16 : Shape := ⟨3, ![4, 4096, 16]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S16x1024, .f32⟩
  | .hbm, ⟨4, _⟩ => ⟨S1024x16, .f32⟩
  | .hbm, ⟨5, _⟩ => ⟨S16x1024, .f32⟩
  | .hbm, ⟨6, _⟩ => ⟨S1024x16, .f32⟩
  | .hbm, ⟨7, _⟩ => ⟨S4x4096x3072, .f32⟩
  | .hbm, ⟨8, _⟩ => ⟨S1x1x3072, .f32⟩
  | .hbm, ⟨9, _⟩ => ⟨S4x4096x3072, .f32⟩
  | .hbm, ⟨10, _⟩ => ⟨S4x4096x3072, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x16, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x16, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x3072, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  bcast_S_S4x4096x1024 : S_.BroadcastsInDim S4x4096x1024 (![] : Fin 0 → Fin S4x4096x1024.rank)
  concatenates_S4x4096x1024_S4x4096x1024_S4x4096x1024_S4x4096x3072_d2 : Shape.Concatenates [S4x4096x1024, S4x4096x1024, S4x4096x1024] S4x4096x3072 2
  dot_S4x4096x1024_S3072x1024_S4x4096x3072_2_1_01_0_n_n_wf : DotDims.WF S4x4096x1024 S3072x1024 S4x4096x3072 [2] [1] [0, 1] [0] [] []
  dot_S4x4096x1024_S16x1024_S4x4096x16_2_1_01_0_n_n_wf : DotDims.WF S4x4096x1024 S16x1024 S4x4096x16 [2] [1] [0, 1] [0] [] []
  dot_S4x4096x16_S1024x16_S4x4096x1024_2_1_01_0_n_n_wf : DotDims.WF S4x4096x16 S1024x16 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S16x1024_S4x4096x16_2_1_01_0_n_n : DotDims S4x4096x1024 S16x1024 S4x4096x16 where
  lhsContracting := [2]
  rhsContracting := [1]
  lhsNonContracting := [0, 1]
  rhsNonContracting := [0]
  lhsBatch := []
  rhsBatch := []
  wf := dot_S4x4096x1024_S16x1024_S4x4096x16_2_1_01_0_n_n_wf
def dot_S4x4096x16_S1024x16_S4x4096x1024_2_1_01_0_n_n : DotDims S4x4096x16 S1024x16 S4x4096x1024 where
  lhsContracting := [2]
  rhsContracting := [1]
  lhsNonContracting := [0, 1]
  rhsNonContracting := [0]
  lhsBatch := []
  rhsBatch := []
  wf := dot_S4x4096x16_S1024x16_S4x4096x1024_2_1_01_0_n_n_wf

class Facts : Prop extends Facts₀ where

variable [Facts]
-- ==== Proof.Spec.lean ====
/-
  What both programs compute, as one function of the seven argument arrays over the extended reals.
  With x : [4, 4096, 1024], w : [3072, 1024], bias : [3072] and the two low-rank pairs a : [16, 1024], bm : [1024, 16],
  the result at (b, s, c) is the dense projection  ∑_d x[b,s,d] · w[c,d] + bias[c],  to which the first 1024 columns
  add  (∑_r (∑_d x[b,s,d] · a_q[r,d]) · b_q[c,r]) · (1/16)  and the last 1024 columns the same with (a_v, b_v) at
  column c − 2048; the middle 1024 columns are the dense projection alone.
-/
import Idealize.ShloMosaic.PureOps.Ideal
import Idealize.ShloMosaic.Lib.ValueIdx

noncomputable section

namespace Cert.LoraQkv

open Idealize.ShloMosaic Idealize.ShloMosaic.ValueIdx

/-- The low-rank scale alpha / rank = 1/16, as the f32 word both programs carry. -/
abbrev scale : EReal := Ideal.ofBits .f32 0x3D800000#32

/-- The dense projection with its bias: entry (b, s, c) of x · wᵀ + bias. -/
def dense (x : FVec Ideal ⟨3, ![4, 4096, 1024]⟩ .f32) (w : FVec Ideal ⟨2, ![3072, 1024]⟩ .f32)
    (bias : FVec Ideal ⟨1, ![3072]⟩ .f32) (b : Fin 4) (s : Fin 4096) (c : Fin 3072) : EReal :=
  (∑ d : Fin 1024, x (ix3 b s d) * w (ix2 c d)) + bias (ix1 c)

/-- The scaled low-rank update: entry (b, s, o) of ((x · aᵀ) · bmᵀ) · scale. -/
def lowRank (x : FVec Ideal ⟨3, ![4, 4096, 1024]⟩ .f32) (a : FVec Ideal ⟨2, ![16, 1024]⟩ .f32)
    (bm : FVec Ideal ⟨2, ![1024, 16]⟩ .f32) (b : Fin 4) (s : Fin 4096) (o : Fin 1024) : EReal :=
  (∑ r : Fin 16, (∑ d : Fin 1024, x (ix3 b s d) * a (ix2 r d)) * bm (ix2 o r)) * scale

/-- The fused projection, by column band: columns [0, 1024) carry the first update, [1024, 2048) none,
    [2048, 3072) the second. -/
def qkv (x : FVec Ideal ⟨3, ![4, 4096, 1024]⟩ .f32) (w : FVec Ideal ⟨2, ![3072, 1024]⟩ .f32)
    (bias : FVec Ideal ⟨1, ![3072]⟩ .f32) (aq : FVec Ideal ⟨2, ![16, 1024]⟩ .f32) (bq : FVec Ideal ⟨2, ![1024, 16]⟩ .f32)
    (av : FVec Ideal ⟨2, ![16, 1024]⟩ .f32) (bv : FVec Ideal ⟨2, ![1024, 16]⟩ .f32) :
    FVec Ideal ⟨3, ![4, 4096, 3072]⟩ .f32 := fun j =>
  if h0 : (j 2).val < 1024 then
    dense x w bias (j 0) (j 1) (j 2) + lowRank x aq bq (j 0) (j 1) ⟨(j 2).val, h0⟩
  else if (j 2).val < 2048 then
    dense x w bias (j 0) (j 1) (j 2)
  else
    dense x w bias (j 0) (j 1) (j 2)
      + lowRank x av bv (j 0) (j 1) ⟨(j 2).val - 2048, by have h : (j 2).val < 3072 := (j 2).isLt; omega⟩

/-- The same with the two leading axes flattened into 16384 rows: row r is (r / 4096, r % 4096). -/
def qkvRows (x : FVec Ideal ⟨3, ![4, 4096, 1024]⟩ .f32) (w : FVec Ideal ⟨2, ![3072, 1024]⟩ .f32)
    (bias : FVec Ideal ⟨1, ![3072]⟩ .f32) (aq : FVec Ideal ⟨2, ![16, 1024]⟩ .f32) (bq : FVec Ideal ⟨2, ![1024, 16]⟩ .f32)
    (av : FVec Ideal ⟨2, ![16, 1024]⟩ .f32) (bv : FVec Ideal ⟨2, ![1024, 16]⟩ .f32) :
    FVec Ideal ⟨2, ![16384, 3072]⟩ .f32 := fun i =>
  qkv x w bias aq bq av bv
    (ix3 (⟨(i 0).val / 4096, by have h : (i 0).val < 16384 := (i 0).isLt; omega⟩ : Fin 4)
      (⟨(i 0).val % 4096, Nat.mod_lt _ (by decide)⟩ : Fin 4096) (⟨(i 1).val, (i 1).isLt⟩ : Fin 3072))

end Cert.LoraQkv

end
-- ==== Proof.KernelCases.lean ====
import proofs.«102285_j1468878815513_1_alg».proof.Proof.Gen.KernelIdeal.Frame
import proofs.«102285_j1468878815513_1_alg».proof.Proof.Spec
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.Tactic

/-
  What each of the body's three control cases leaves in the output block's staging buffer, as a value:
  the one covering store's payload, a function of the blocks the case loaded. On the first column band
  the dense block plus the first low-rank update, on the middle band the dense block alone, on the last
  band the dense block plus the second update.
-/

noncomputable section

namespace Cert.KernelIdeal.Cases

open Idealize.ShloMosaic Idealize.ShloMosaic.TcCoe Idealize.SL.Sem
open Cert.KernelIdeal Cert.KernelIdeal.Gen

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a; rfl

/-- First column band: the stored block is the dense block plus the scaled update through (a_q, b_q). -/
theorem staged_first (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S16x1024 .bf16) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x16 .bf16) (harg8 : arg8.IsWhole) (arg9 : Memref sig .tc .vmem S2048x1024 .f32) (harg9 : arg9.IsWhole) (hc0 : cond0_0 i) (hc1 : ¬cond0_1 i) (hc2 : ¬cond0_2 i)
    (x0 : Vec F S2048x1024 .bf16) (x1 : Vec F S1024x1024 .bf16) (x2 : Vec F S1024 .f32) (x3 : Vec F S16x1024 .bf16) (x4 : Vec F S1024x16 .bf16) (x5 : Vec F S16x1024 .bf16) (x6 : Vec F S1024x16 .bf16) :
    out0_A_7 c i arg2 harg2 arg3 harg3 arg4 harg4 arg5 harg5 arg6 harg6 arg7 harg7 arg8 harg8 arg9 harg9 hc0 hc1 hc2 x0 x1 x2 x3 x4 x5 x6 = k0_pay3 x0 x1 x2 x3 x4 := by
  unfold out0_A_7
  rw [View.read_writes_eq_canon _ _ _ (cover0_A_7 c i arg2 harg2 arg3 harg3 arg4 harg4 arg5 harg5 arg6 harg6 arg7 harg7 arg8 harg8 arg9 harg9 hc0 hc1 hc2 x0 x1 x2 x3 x4 x5 x6)]
  unfold kernelRun0_A
  dsimp only
  sl_unfold_words
  rw [View.canon_unit_zero zero2]
  simp only [View.readAt_eq_ld, harg2.read_unread, harg3.read_unread, harg4.read_unread, harg5.read_unread, harg6.read_unread, harg7.read_unread, harg8.read_unread, View.ld_unit_zero (S := S2048x1024) zero2, View.ld_unit_zero (S := S1024x1024) zero2, View.ld_unit_zero (S := S16x1024) zero2, View.ld_unit_zero (S := S1024x16) zero2, View.ld_unit_zero (S := S1024) zero1]

/-- Middle column band: the stored block is the dense block. -/
theorem staged_middle (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S16x1024 .bf16) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x16 .bf16) (harg8 : arg8.IsWhole) (arg9 : Memref sig .tc .vmem S2048x1024 .f32) (harg9 : arg9.IsWhole) (hc0 : ¬cond0_0 i) (hc1 : cond0_1 i) (hc2 : ¬cond0_2 i)
    (x0 : Vec F S2048x1024 .bf16) (x1 : Vec F S1024x1024 .bf16) (x2 : Vec F S1024 .f32) (x3 : Vec F S16x1024 .bf16) (x4 : Vec F S1024x16 .bf16) (x5 : Vec F S16x1024 .bf16) (x6 : Vec F S1024x16 .bf16) :
    out0_B_7 c i arg2 harg2 arg3 harg3 arg4 harg4 arg5 harg5 arg6 harg6 arg7 harg7 arg8 harg8 arg9 harg9 hc0 hc1 hc2 x0 x1 x2 x3 x4 x5 x6 = k0_pay2 x0 x1 x2 := by
  unfold out0_B_7
  rw [View.read_writes_eq_canon _ _ _ (cover0_B_7 c i arg2 harg2 arg3 harg3 arg4 harg4 arg5 harg5 arg6 harg6 arg7 harg7 arg8 harg8 arg9 harg9 hc0 hc1 hc2 x0 x1 x2 x3 x4 x5 x6)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread, View.ld_unit_zero (S := S2048x1024) zero2, View.ld_unit_zero (S := S1024x1024) zero2, View.ld_unit_zero (S := S16x1024) zero2, View.ld_unit_zero (S := S1024x16) zero2, View.ld_unit_zero (S := S1024) zero1]

/-- Last column band: the stored block is the dense block plus the scaled update through (a_v, b_v). -/
theorem staged_last (c : Dev nD) (i : grid0.Coords) (arg2 : Memref sig .tc .vmem S2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S16x1024 .bf16) (harg5 : arg5.IsWhole) (arg6 : Memref sig .tc .vmem S1024x16 .bf16) (harg6 : arg6.IsWhole) (arg7 : Memref sig .tc .vmem S16x1024 .bf16) (harg7 : arg7.IsWhole) (arg8 : Memref sig .tc .vmem S1024x16 .bf16) (harg8 : arg8.IsWhole) (arg9 : Memref sig .tc .vmem S2048x1024 .f32) (harg9 : arg9.IsWhole) (hc0 : ¬cond0_0 i) (hc1 : ¬cond0_1 i) (hc2 : cond0_2 i)
    (x0 : Vec F S2048x1024 .bf16) (x1 : Vec F S1024x1024 .bf16) (x2 : Vec F S1024 .f32) (x3 : Vec F S16x1024 .bf16) (x4 : Vec F S1024x16 .bf16) (x5 : Vec F S16x1024 .bf16) (x6 : Vec F S1024x16 .bf16) :
    out0_C_7 c i arg2 harg2 arg3 harg3 arg4 harg4 arg5 harg5 arg6 harg6 arg7 harg7 arg8 harg8 arg9 harg9 hc0 hc1 hc2 x0 x1 x2 x3 x4 x5 x6 = k0_pay4 x0 x1 x2 x5 x6 := by
  unfold out0_C_7
  rw [View.read_writes_eq_canon _ _ _ (cover0_C_7 c i arg2 harg2 arg3 harg3 arg4 harg4 arg5 harg5 arg6 harg6 arg7 harg7 arg8 harg8 arg9 harg9 hc0 hc1 hc2 x0 x1 x2 x3 x4 x5 x6)]
  unfold kernelRun0_C
  dsimp only
  sl_unfold_words
  rw [View.canon_unit_zero zero2]
  simp only [View.readAt_eq_ld, harg2.read_unread, harg3.read_unread, harg4.read_unread, harg5.read_unread, harg6.read_unread, harg7.read_unread, harg8.read_unread, View.ld_unit_zero (S := S2048x1024) zero2, View.ld_unit_zero (S := S1024x1024) zero2, View.ld_unit_zero (S := S16x1024) zero2, View.ld_unit_zero (S := S1024x16) zero2, View.ld_unit_zero (S := S1024) zero1]

end Cert.KernelIdeal.Cases

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KernelPayload.lean ====
import proofs.«102285_j1468878815513_1_alg».proof.Proof.Gen.KernelIdeal.Skeleton
import proofs.«102285_j1468878815513_1_alg».proof.Proof.Spec
import proofs.«102285_j1468878815513_1_alg».proof.Proof.LibMatmulAt
import Idealize.ShloMosaic.Lib.Pipeline.Value
import Idealize.ShloMosaic.Lib.ValueLayout
import Idealize.ShloMosaic.PureOps.Ideal.Laws
/-
  The body's stored values read at one entry (p, q) of the 2048 × 1024 output block, over the extended reals,
  as functions of the loaded blocks: xb the 2048 rows of x, wb the 1024 rows of w of this column band (so the
  transposed block is read at (q, d)), bb the band's 1024 bias entries, and a low-rank pair a : [16, 1024],
  bm : [1024, 16]. The dense block is ∑_d xb[p,d] · wb[q,d] + bb[q]; the update is
  (∑_r (∑_d xb[p,d] · a[r,d]) · bm[q,r]) · (1/16). A change of float format is the identity here, and each
  matrix product into the zero block is the plain sum over its contracted axis.
-/

noncomputable section

namespace Cert.KernelIdeal.Payload

open Idealize.ShloMosaic Idealize.ShloMosaic.TcCoe Idealize.SL.Sem Idealize.ShloMosaic.ValueIdx Idealize.ShloMosaic.MatmulAt
open Cert.KernelIdeal Cert.KernelIdeal.Gen

/-! Where each of the three products reads its operands: the left one at (row, k), the right one at (k, column). -/

theorem dense_l0 (i : S2048x1024.Idx) (q : dot_S2048x1024_S1024x1024_S2048x1024_1_0_0_1_n_n.contr.Idx) : (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem dense_l1 (i : S2048x1024.Idx) (q : dot_S2048x1024_S1024x1024_S2048x1024_1_0_0_1_n_n.contr.Idx) : (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem dense_r0 (i : S2048x1024.Idx) (q : dot_S2048x1024_S1024x1024_S2048x1024_1_0_0_1_n_n.contr.Idx) : (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem dense_r1 (i : S2048x1024.Idx) (q : dot_S2048x1024_S1024x1024_S2048x1024_1_0_0_1_n_n.contr.Idx) : (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

theorem down_l0 (i : S2048x16.Idx) (q : dot_S2048x1024_S1024x16_S2048x16_1_0_0_1_n_n.contr.Idx) : (dot_S2048x1024_S1024x16_S2048x16_1_0_0_1_n_n.lhsIdx i q 0).val = (i 0).val := by
  unfold DotDims.lhsIdx
  rw [dif_neg (show ¬(0 : Fin S2048x1024.rank) ∈ dot_S2048x1024_S1024x16_S2048x16_1_0_0_1_n_n.lhsBatch by decide), dif_pos (show (0 : Fin S2048x1024.rank) ∈ dot_S2048x1024_S1024x16_S2048x16_1_0_0_1_n_n.lhsNonContracting by decide)]
  rfl
theorem down_l1 (i : S2048x16.Idx) (q : dot_S2048x1024_S1024x16_S2048x16_1_0_0_1_n_n.contr.Idx) : (dot_S2048x1024_S1024x16_S2048x16_1_0_0_1_n_n.lhsIdx i q 1).val = (q ⟨0, by decide⟩).val :=
  dot_S2048x1024_S1024x16_S2048x16_1_0_0_1_n_n.lhsIdx_val_of_single rfl i q
theorem down_r0 (i : S2048x16.Idx) (q : dot_S2048x1024_S1024x16_S2048x16_1_0_0_1_n_n.contr.Idx) : (dot_S2048x1024_S1024x16_S2048x16_1_0_0_1_n_n.rhsIdx i q 0).val = (q ⟨0, by decide⟩).val :=
  dot_S2048x1024_S1024x16_S2048x16_1_0_0_1_n_n.rhsIdx_val_of_single rfl i q
theorem down_r1 (i : S2048x16.Idx) (q : dot_S2048x1024_S1024x16_S2048x16_1_0_0_1_n_n.contr.Idx) : (dot_S2048x1024_S1024x16_S2048x16_1_0_0_1_n_n.rhsIdx i q 1).val = (i 1).val := by
  unfold DotDims.rhsIdx
  rw [dif_neg (show ¬(1 : Fin S1024x16.rank) ∈ dot_S2048x1024_S1024x16_S2048x16_1_0_0_1_n_n.rhsBatch by decide), dif_pos (show (1 : Fin S1024x16.rank) ∈ dot_S2048x1024_S1024x16_S2048x16_1_0_0_1_n_n.rhsNonContracting by decide)]
  rfl

theorem up_l0 (i : S2048x1024.Idx) (q : dot_S2048x16_S16x1024_S2048x1024_1_0_0_1_n_n.contr.Idx) : (dot_S2048x16_S16x1024_S2048x1024_1_0_0_1_n_n.lhsIdx i q 0).val = (i 0).val := by
  unfold DotDims.lhsIdx
  rw [dif_neg (show ¬(0 : Fin S2048x16.rank) ∈ dot_S2048x16_S16x1024_S2048x1024_1_0_0_1_n_n.lhsBatch by decide), dif_pos (show (0 : Fin S2048x16.rank) ∈ dot_S2048x16_S16x1024_S2048x1024_1_0_0_1_n_n.lhsNonContracting by decide)]
  rfl
theorem up_l1 (i : S2048x1024.Idx) (q : dot_S2048x16_S16x1024_S2048x1024_1_0_0_1_n_n.contr.Idx) : (dot_S2048x16_S16x1024_S2048x1024_1_0_0_1_n_n.lhsIdx i q 1).val = (q ⟨0, by decide⟩).val :=
  dot_S2048x16_S16x1024_S2048x1024_1_0_0_1_n_n.lhsIdx_val_of_single rfl i q
theorem up_r0 (i : S2048x1024.Idx) (q : dot_S2048x16_S16x1024_S2048x1024_1_0_0_1_n_n.contr.Idx) : (dot_S2048x16_S16x1024_S2048x1024_1_0_0_1_n_n.rhsIdx i q 0).val = (q ⟨0, by decide⟩).val :=
  dot_S2048x16_S16x1024_S2048x1024_1_0_0_1_n_n.rhsIdx_val_of_single rfl i q
theorem up_r1 (i : S2048x1024.Idx) (q : dot_S2048x16_S16x1024_S2048x1024_1_0_0_1_n_n.contr.Idx) : (dot_S2048x16_S16x1024_S2048x1024_1_0_0_1_n_n.rhsIdx i q 1).val = (i 1).val := by
  unfold DotDims.rhsIdx
  rw [dif_neg (show ¬(1 : Fin S16x1024.rank) ∈ dot_S2048x16_S16x1024_S2048x1024_1_0_0_1_n_n.rhsBatch by decide), dif_pos (show (1 : Fin S16x1024.rank) ∈ dot_S2048x16_S16x1024_S2048x1024_1_0_0_1_n_n.rhsNonContracting by decide)]
  rfl

/-- The dense block at (p, q): row p of xb against row q of wb, plus the bias at q. -/
theorem dense_at (xb : FVec Ideal S2048x1024 .bf16) (wb : FVec Ideal S1024x1024 .bf16) (bb : FVec Ideal S1024 .f32)
    (p : Fin 2048) (q : Fin 1024) :
    k0_pay2 (F := Ideal) xb wb bb (ix2 p q) = (∑ d : Fin 1024, xb (ix2 p d) * wb (ix2 q d)) + bb (ix1 q) := by
  unfold k0_pay2 k0_pay1
  dsimp only
  refine congrArg₂ (· + ·) ?_ ?_
  · refine (matmul_zero_at dot_S2048x1024_S1024x1024_S2048x1024_1_0_0_1_n_n rfl rfl dense_l0 dense_l1 dense_r0 dense_r1 none _ _ p q).trans ?_
    refine Finset.sum_congr rfl fun d _ => congrArg₂ (· * ·) ?_ ?_
    · rw [shapeCast_self]
    · refine (transpose_ix2_apply _ _ d q).trans ?_
      rw [shapeCast_self]
  · refine (broadcastTo_1b_ab_apply _ _ p q).trans ?_
    exact shapeCast_a_1a_apply bb _ 0 q

/-- The scaled low-rank product at (p, q), as the body computes it from the loaded pair. -/
theorem update_at (xb : FVec Ideal S2048x1024 .bf16) (a : FVec Ideal S16x1024 .bf16) (bm : FVec Ideal S1024x16 .bf16)
    (p : Fin 2048) (q : Fin 1024) :
    mulf (matmul dot_S2048x16_S16x1024_S2048x1024_1_0_0_1_n_n none
        (truncf .bf16 (matmul dot_S2048x1024_S1024x16_S2048x16_1_0_0_1_n_n none (k0_pay1 (F := Ideal) xb)
          (transpose S1024x16 [1, 0] (shapeCast S16x1024 a shapeCasts_S16x1024_S16x1024) transposes_S16x1024_p1_0_S1024x16)
          (constant (F := Ideal) S2048x16 .f32 0x00000000#32)) bitsLt_bf16_f32)
        (transpose S16x1024 [1, 0] (shapeCast S1024x16 bm shapeCasts_S1024x16_S1024x16) transposes_S1024x16_p1_0_S16x1024)
        (constant (F := Ideal) S2048x1024 .f32 0x00000000#32))
      (broadcast S2048x1024 (Scalar.ofBits (F := Ideal) .f32 0x3D800000#32)) (ix2 p q)
    = (∑ r : Fin 16, (∑ d : Fin 1024, xb (ix2 p d) * a (ix2 r d)) * bm (ix2 q r)) * Cert.LoraQkv.scale := by
  refine congrArg₂ (· * ·) ?_ rfl
  refine (matmul_zero_at dot_S2048x16_S16x1024_S2048x1024_1_0_0_1_n_n rfl rfl up_l0 up_l1 up_r0 up_r1 none _ _ p q).trans ?_
  refine Finset.sum_congr rfl fun r _ => congrArg₂ (· * ·) ?_ ?_
  · show (matmul dot_S2048x1024_S1024x16_S2048x16_1_0_0_1_n_n none (k0_pay1 (F := Ideal) xb) _ _) (ix2 p r) = _
    refine (matmul_zero_at dot_S2048x1024_S1024x16_S2048x16_1_0_0_1_n_n rfl rfl down_l0 down_l1 down_r0 down_r1 none _ _ p r).trans ?_
    refine Finset.sum_congr rfl fun d _ => congrArg₂ (· * ·) ?_ ?_
    · unfold k0_pay1
      rw [shapeCast_self]
    · refine (transpose_ix2_apply _ _ d r).trans ?_
      rw [shapeCast_self]
  · refine (transpose_ix2_apply _ _ r q).trans ?_
    rw [shapeCast_self]

/-- First band's stored block at (p, q): the dense block plus the update through the first pair. -/
theorem first_at (xb : FVec Ideal S2048x1024 .bf16) (wb : FVec Ideal S1024x1024 .bf16) (bb : FVec Ideal S1024 .f32)
    (a : FVec Ideal S16x1024 .bf16) (bm : FVec Ideal S1024x16 .bf16) (p : Fin 2048) (q : Fin 1024) :
    k0_pay3 (F := Ideal) xb wb bb a bm (ix2 p q)
      = ((∑ d : Fin 1024, xb (ix2 p d) * wb (ix2 q d)) + bb (ix1 q))
        + (∑ r : Fin 16, (∑ d : Fin 1024, xb (ix2 p d) * a (ix2 r d)) * bm (ix2 q r)) * Cert.LoraQkv.scale := by
  unfold k0_pay3
  dsimp only
  exact congrArg₂ (· + ·) (dense_at xb wb bb p q) (update_at xb a bm p q)

/-- Last band's stored block at (p, q): the dense block plus the update through the second pair. -/
theorem last_at (xb : FVec Ideal S2048x1024 .bf16) (wb : FVec Ideal S1024x1024 .bf16) (bb : FVec Ideal S1024 .f32)
    (a : FVec Ideal S16x1024 .bf16) (bm : FVec Ideal S1024x16 .bf16) (p : Fin 2048) (q : Fin 1024) :
    k0_pay4 (F := Ideal) xb wb bb a bm (ix2 p q)
      = ((∑ d : Fin 1024, xb (ix2 p d) * wb (ix2 q d)) + bb (ix1 q))
        + (∑ r : Fin 16, (∑ d : Fin 1024, xb (ix2 p d) * a (ix2 r d)) * bm (ix2 q r)) * Cert.LoraQkv.scale := by
  unfold k0_pay4
  dsimp only
  exact congrArg₂ (· + ·) (dense_at xb wb bb p q) (update_at xb a bm p q)

end Cert.KernelIdeal.Payload

end
-- ==== Proof.KernelBlocks.lean ====
import proofs.«102285_j1468878815513_1_alg».proof.Proof.Gen.KernelIdeal.Frame
import proofs.«102285_j1468878815513_1_alg».proof.Proof.Spec
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.Tactic

/-
  What the region finds in the arrays it stages, and what each window's block holds at a grid point, over the
  extended reals. The host lines before the region flatten x to 16384 rows and change float formats, which is the
  identity here, so row r of the staged x is x[r / 4096, r % 4096, ·] and the other staged arrays are the arguments
  themselves. Point t = 3·i + n of the 8 × 3 grid takes rows [2048·i, 2048·i + 2048) of x, rows
  [1024·n, 1024·n + 1024) of w and of the bias, the four low-rank matrices whole, and writes rows
  [2048·i, …) × columns [1024·n, …) of the result.
-/

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

/-! ## The staged arrays at the region's entry (at any float family) -/

section Entry

variable {F : FTy → Type} [FloatOps F] (m : (ℓ : Loc nD τ sig) → Buf (Elt F) ℓ)

theorem entry_x (c : Dev nD) : V m c main_v1
    = truncf .bf16 (shapeCast S16384x1024 (m ((c : Thread nD τ).loc main_arg0)) shapeCasts_S4x4096x1024_S16384x1024) bitsLt_bf16_f32 := by
  show StableHlo.after hostOps0 (fun b => m (c, b)) (Proc.devRef .tc main_v1) = _
  after_results
  rfl

theorem entry_w (c : Dev nD) : V m c main_v2 = truncf .bf16 (m ((c : Thread nD τ).loc main_arg1)) bitsLt_bf16_f32 := by
  show StableHlo.after hostOps0 (fun b => m (c, b)) (Proc.devRef .tc main_v2) = _
  after_results

theorem entry_aq (c : Dev nD) : V m c main_v3 = truncf .bf16 (m ((c : Thread nD τ).loc main_arg3)) bitsLt_bf16_f32 := by
  show StableHlo.after hostOps0 (fun b => m (c, b)) (Proc.devRef .tc main_v3) = _
  after_results

theorem entry_bq (c : Dev nD) : V m c main_v4 = truncf .bf16 (m ((c : Thread nD τ).loc main_arg4)) bitsLt_bf16_f32 := by
  show StableHlo.after hostOps0 (fun b => m (c, b)) (Proc.devRef .tc main_v4) = _
  after_results

theorem entry_av (c : Dev nD) : V m c main_v5 = truncf .bf16 (m ((c : Thread nD τ).loc main_arg5)) bitsLt_bf16_f32 := by
  show StableHlo.after hostOps0 (fun b => m (c, b)) (Proc.devRef .tc main_v5) = _
  after_results

theorem entry_bv (c : Dev nD) : V m c main_v6 = truncf .bf16 (m ((c : Thread nD τ).loc main_arg6)) bitsLt_bf16_f32 := by
  show StableHlo.after hostOps0 (fun b => m (c, b)) (Proc.devRef .tc main_v6) = _
  after_results

end Entry

variable (m : (ℓ : Loc nD τ sig) → Buf (Elt Ideal) ℓ)

/-! ## The windows' block indices, decided over the 24 grid points -/

theorem index_facts : ∀ t : Fin cfg0.N,
    win0_0.index t (0 : Fin 2) = t.val / 3 ∧ win0_0.index t (1 : Fin 2) = 0
    ∧ win0_1.index t (0 : Fin 2) = t.val % 3 ∧ win0_1.index t (1 : Fin 2) = 0
    ∧ win0_2.index t (0 : Fin 1) = t.val % 3
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 3 ∧ win0_7.index t (1 : Fin 2) = t.val % 3 :=
  (by decide +kernel : ∀ t : Fin grid0.N, _)

/-! ## The blocks read at an entry -/

/-- Row p of the x block at point t is row 2048·(t / 3) + p of the flattened x. -/
theorem xblock_at (c : Dev nD) (t : Fin cfg0.N) (p : Fin 2048) (d : Fin 1024) (b : Fin 4) (s : Fin 4096)
    (hbs : b.val * 4096 + s.val = t.val / 3 * 2048 + p.val) :
    (iblk m c 0 t : FVec Ideal S2048x1024 .bf16) (ix2 p d) = m ((c : Thread nD τ).loc main_arg0) (ix3 b s d) := by
  unfold iblk
  show V m c main_v1 (((cfg0.win 0).blk t).view.emb (ix2 p d)) = _
  rw [entry_x]
  show shapeCast S16384x1024 (m ((c : Thread nD τ).loc main_arg0)) shapeCasts_S4x4096x1024_S16384x1024 (((cfg0.win 0).blk t).view.emb (ix2 p d)) = _
  refine shapeCast_apply _ _ _ _ ?_
  show (S4x4096x1024.rowMajor (ix3 b s d)).val = (S16384x1024.rowMajor (((cfg0.win 0).blk t).view.emb (ix2 p d))).val
  rw [Shape.rowMajor_val_three, Shape.rowMajor_val_two]
  obtain ⟨e0, e1, -⟩ := index_facts t
  show (b.val * 4096 + s.val) * 1024 + d.val = (win0_0.index t (0 : Fin 2) * 2048 + 1 * p.val) * 1024 + (win0_0.index t (1 : Fin 2) * 1024 + 1 * d.val)
  rw [e0, e1]
  omega

/-- Row q of the w block at point t is row 1024·(t % 3) + q of w. -/
theorem wblock_at (c : Dev nD) (t : Fin cfg0.N) (q : Fin 1024) (d : Fin 1024) (col : Fin 3072)
    (hcol : col.val = t.val % 3 * 1024 + q.val) :
    (iblk m c 1 t : FVec Ideal S1024x1024 .bf16) (ix2 q d) = m ((c : Thread nD τ).loc main_arg1) (ix2 col d) := by
  unfold iblk
  show V m c main_v2 (((cfg0.win 1).blk t).view.emb (ix2 q d)) = _
  rw [entry_w]
  show m ((c : Thread nD τ).loc main_arg1) (((cfg0.win 1).blk t).view.emb (ix2 q d)) = _
  obtain ⟨-, -, e0, e1, -⟩ := index_facts t
  refine congrArg _ (funext fun a => Fin.ext ?_)
  match a with
  | ⟨0, _⟩ => show win0_1.index t (0 : Fin 2) * 1024 + 1 * q.val = col.val; rw [e0, hcol]; omega
  | ⟨1, _⟩ => show win0_1.index t (1 : Fin 2) * 1024 + 1 * d.val = d.val; rw [e1]; omega

/-- Entry q of the bias block at point t is entry 1024·(t % 3) + q of the bias. -/
theorem bblock_at (c : Dev nD) (t : Fin cfg0.N) (q : Fin 1024) (col : Fin 3072)
    (hcol : col.val = t.val % 3 * 1024 + q.val) :
    (iblk m c 2 t : FVec Ideal S1024 .f32) (ix1 q) = m ((c : Thread nD τ).loc main_arg2) (ix1 col) := by
  unfold iblk
  show V m c main_arg2 (((cfg0.win 2).blk t).view.emb (ix1 q)) = _
  rw [V_main_arg2]
  obtain ⟨-, -, -, -, e0, -⟩ := index_facts t
  refine congrArg _ (funext fun a => Fin.ext ?_)
  match a with
  | ⟨0, _⟩ => show win0_2.index t (0 : Fin 1) * 1024 + 1 * q.val = col.val; rw [e0, hcol]; omega

/-- The four low-rank matrices are staged whole: every point reads the arguments themselves. -/
theorem aqblock_at (c : Dev nD) (t : Fin cfg0.N) (r : Fin 16) (d : Fin 1024) :
    (iblk m c 3 t : FVec Ideal S16x1024 .bf16) (ix2 r d) = m ((c : Thread nD τ).loc main_arg3) (ix2 r d) := by
  unfold iblk
  show V m c main_v3 (((cfg0.win 3).blk t).view.emb (ix2 r d)) = _
  rw [entry_aq]
  show m ((c : Thread nD τ).loc main_arg3) (((cfg0.win 3).blk t).view.emb (ix2 r d)) = _
  obtain ⟨-, -, -, -, -, e0, e1, -⟩ := index_facts t
  refine congrArg _ (funext fun a => Fin.ext ?_)
  match a with
  | ⟨0, _⟩ => show win0_3.index t (0 : Fin 2) * 16 + 1 * r.val = r.val; rw [e0]; omega
  | ⟨1, _⟩ => show win0_3.index t (1 : Fin 2) * 1024 + 1 * d.val = d.val; rw [e1]; omega

theorem bqblock_at (c : Dev nD) (t : Fin cfg0.N) (q : Fin 1024) (r : Fin 16) :
    (iblk m c 4 t : FVec Ideal S1024x16 .bf16) (ix2 q r) = m ((c : Thread nD τ).loc main_arg4) (ix2 q r) := by
  unfold iblk
  show V m c main_v4 (((cfg0.win 4).blk t).view.emb (ix2 q r)) = _
  rw [entry_bq]
  show m ((c : Thread nD τ).loc main_arg4) (((cfg0.win 4).blk t).view.emb (ix2 q r)) = _
  obtain ⟨-, -, -, -, -, -, -, e0, e1, -⟩ := index_facts t
  refine congrArg _ (funext fun a => Fin.ext ?_)
  match a with
  | ⟨0, _⟩ => show win0_4.index t (0 : Fin 2) * 1024 + 1 * q.val = q.val; rw [e0]; omega
  | ⟨1, _⟩ => show win0_4.index t (1 : Fin 2) * 16 + 1 * r.val = r.val; rw [e1]; omega

theorem avblock_at (c : Dev nD) (t : Fin cfg0.N) (r : Fin 16) (d : Fin 1024) :
    (iblk m c 5 t : FVec Ideal S16x1024 .bf16) (ix2 r d) = m ((c : Thread nD τ).loc main_arg5) (ix2 r d) := by
  unfold iblk
  show V m c main_v5 (((cfg0.win 5).blk t).view.emb (ix2 r d)) = _
  rw [entry_av]
  show m ((c : Thread nD τ).loc main_arg5) (((cfg0.win 5).blk t).view.emb (ix2 r d)) = _
  obtain ⟨-, -, -, -, -, -, -, -, -, e0, e1, -⟩ := index_facts t
  refine congrArg _ (funext fun a => Fin.ext ?_)
  match a with
  | ⟨0, _⟩ => show win0_5.index t (0 : Fin 2) * 16 + 1 * r.val = r.val; rw [e0]; omega
  | ⟨1, _⟩ => show win0_5.index t (1 : Fin 2) * 1024 + 1 * d.val = d.val; rw [e1]; omega

theorem bvblock_at (c : Dev nD) (t : Fin cfg0.N) (q : Fin 1024) (r : Fin 16) :
    (iblk m c 6 t : FVec Ideal S1024x16 .bf16) (ix2 q r) = m ((c : Thread nD τ).loc main_arg6) (ix2 q r) := by
  unfold iblk
  show V m c main_v6 (((cfg0.win 6).blk t).view.emb (ix2 q r)) = _
  rw [entry_bv]
  show m ((c : Thread nD τ).loc main_arg6) (((cfg0.win 6).blk t).view.emb (ix2 q r)) = _
  obtain ⟨-, -, -, -, -, -, -, -, -, -, -, e0, e1, -⟩ := index_facts t
  refine congrArg _ (funext fun a => Fin.ext ?_)
  match a with
  | ⟨0, _⟩ => show win0_6.index t (0 : Fin 2) * 1024 + 1 * q.val = q.val; rw [e0]; omega
  | ⟨1, _⟩ => show win0_6.index t (1 : Fin 2) * 16 + 1 * r.val = r.val; rw [e1]; omega

end Cert.KernelIdeal.Blocks

end
-- ==== Proof.KernelResult.lean ====
import proofs.«102285_j1468878815513_1_alg».proof.Proof.Gen.KernelIdeal.Frame
import proofs.«102285_j1468878815513_1_alg».proof.Proof.Spec
import proofs.«102285_j1468878815513_1_alg».proof.Proof.KernelCases
import proofs.«102285_j1468878815513_1_alg».proof.Proof.KernelPayload
import proofs.«102285_j1468878815513_1_alg».proof.Proof.KernelBlocks
import Idealize.ShloMosaic.Lib.Pipeline.Value
import Idealize.ShloMosaic.Lib.ValueLayout
import Idealize.ShloMosaic.Lib.StableHlo.Run
import Idealize.ShloMosaic.Lib.Tactic
/-
  The idealized kernel's result array, as one function of the arguments. At grid point t = 3·i + n the body
  leaves in the output block the fused projection's entries for rows [2048·i, 2048·i + 2048) and columns
  [1024·n, 1024·n + 1024): which of the three stored values it is follows n, and so does the column band of the
  specification. Every point writes its block back, and the 8 × 3 blocks tile the 16384 × 3072 array, so the array
  ends holding the fused projection by rows; the host line after the region reshapes it to [4, 4096, 3072], which
  is the fused projection itself, row r being (r / 4096, r % 4096).
-/

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen
open Cert.LoraQkv (dense lowRank qkv qkvRows scale)

variable (m : (ℓ : Loc nD τ sig) → Buf (Elt Ideal) ℓ) (ρ : Dev nD → PrngReg)

/-- The fused projection of the launch contents of the seven arguments, by rows. -/
abbrev rows (c : Dev nD) : FVec Ideal S16384x3072 .f32 := qkvRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The fused projection of the launch contents of the seven arguments. -/
abbrev fused (c : Dev nD) : FVec Ideal S4x4096x3072 .f32 := qkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- WHAT POINT t LEAVES in the output block, entry by entry: the fused projection at row 2048·(t / 3) + y₀ and
    column 1024·(t % 3) + y₁. -/
theorem staged_at (c : Dev nD) (t : Fin cfg0.N) (y : S2048x1024.Idx) (i : S16384x3072.Idx)
    (hi0 : (i 0).val = t.val / 3 * 2048 + (y 0).val) (hi1 : (i 1).val = t.val % 3 * 1024 + (y 1).val) :
    outsAt0 m c t.val t.isLt y = rows m c i := by
  obtain ⟨p, q, rfl⟩ : ∃ (p : Fin 2048) (q : Fin 1024), y = ix2 p q := ⟨y 0, y 1, eq_ix2 y⟩
  have hN : t.val < 24 := lt_of_lt_of_eq t.isLt (show cfg0.N = 24 from N_0)
  have hp : p.val < 2048 := p.isLt
  have hq : q.val < 1024 := q.isLt
  have hi0' : (i 0).val = t.val / 3 * 2048 + p.val := hi0
  have hi1' : (i 1).val = t.val % 3 * 1024 + q.val := hi1
  -- the entry's coordinates in the result
  have hrow : (i 0).val < 16384 := (i 0).isLt
  have hcolLt : (i 1).val < 3072 := (i 1).isLt
  let b : Fin 4 := ⟨(i 0).val / 4096, by omega⟩
  let s : Fin 4096 := ⟨(i 0).val % 4096, Nat.mod_lt _ (by decide)⟩
  let col : Fin 3072 := ⟨(i 1).val, (i 1).isLt⟩
  have hbs : b.val * 4096 + s.val = t.val / 3 * 2048 + p.val := by
    show (i 0).val / 4096 * 4096 + (i 0).val % 4096 = _
    omega
  have hcol : col.val = t.val % 3 * 1024 + q.val := hi1'
  show _ = qkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s col)
  by_cases h0 : t.val % 3 = 0
  · have h1 : ¬t.val % 3 = 1 := by omega
    have h2 : ¬t.val % 3 = 2 := by omega
    have hband : col.val < 1024 := by omega
    have ho : (⟨col.val, hband⟩ : Fin 1024) = q := Fin.ext (by show col.val = q.val; omega)
    rw [outsAt0_A m c t h0 h1 h2]
    refine (congrFun (Cases.staged_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t)) (ix2 p q)).trans ?_
    refine (Payload.first_at (iblk m c 0 t) (iblk m c 1 t) (iblk m c 2 t) (iblk m c 3 t) (iblk m c 4 t) p q).trans ?_
    unfold qkv
    rw [dif_pos (show ((ix3 b s col) 2).val < 1024 from hband)]
    unfold dense lowRank
    refine congrArg₂ (· + ·) (congrArg₂ (· + ·) (Finset.sum_congr rfl fun d _ => congrArg₂ (· * ·)
      (Blocks.xblock_at m c t p d b s hbs) (Blocks.wblock_at m c t q d col hcol)) (Blocks.bblock_at m c t q col hcol)) ?_
    refine congrArg₂ (· * ·) (Finset.sum_congr rfl fun r _ => congrArg₂ (· * ·) (Finset.sum_congr rfl fun d _ => congrArg₂ (· * ·)
      (Blocks.xblock_at m c t p d b s hbs) (Blocks.aqblock_at m c t r d)) ?_) rfl
    refine (Blocks.bqblock_at m c t q r).trans ?_
    exact congrArg (fun o : Fin 1024 => (m ((c : Thread nD τ).loc main_arg4)) (ix2 o r)) ho.symm
  · by_cases h1 : t.val % 3 = 1
    · have h2 : ¬t.val % 3 = 2 := by omega
      have hband0 : ¬col.val < 1024 := by omega
      have hband1 : col.val < 2048 := by omega
      rw [outsAt0_B m c t h0 h1 h2]
      refine (congrFun (Cases.staged_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t)) (ix2 p q)).trans ?_
      refine (Payload.dense_at (iblk m c 0 t) (iblk m c 1 t) (iblk m c 2 t) p q).trans ?_
      unfold qkv
      rw [dif_neg (show ¬((ix3 b s col) 2).val < 1024 from hband0), if_pos (show ((ix3 b s col) 2).val < 2048 from hband1)]
      unfold dense
      exact congrArg₂ (· + ·) (Finset.sum_congr rfl fun d _ => congrArg₂ (· * ·)
        (Blocks.xblock_at m c t p d b s hbs) (Blocks.wblock_at m c t q d col hcol)) (Blocks.bblock_at m c t q col hcol)
    · have h2 : t.val % 3 = 2 := by omega
      have hband0 : ¬col.val < 1024 := by omega
      have hband1 : ¬col.val < 2048 := by omega
      have ho : ∀ hlt : col.val - 2048 < 1024, (⟨col.val - 2048, hlt⟩ : Fin 1024) = q := fun hlt => Fin.ext (by show col.val - 2048 = q.val; omega)
      rw [outsAt0_C m c t h0 h1 h2]
      refine (congrFun (Cases.staged_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t)) (ix2 p q)).trans ?_
      refine (Payload.last_at (iblk m c 0 t) (iblk m c 1 t) (iblk m c 2 t) (iblk m c 5 t) (iblk m c 6 t) p q).trans ?_
      unfold qkv
      rw [dif_neg (show ¬((ix3 b s col) 2).val < 1024 from hband0), if_neg (show ¬((ix3 b s col) 2).val < 2048 from hband1)]
      unfold dense lowRank
      refine congrArg₂ (· + ·) (congrArg₂ (· + ·) (Finset.sum_congr rfl fun d _ => congrArg₂ (· * ·)
        (Blocks.xblock_at m c t p d b s hbs) (Blocks.wblock_at m c t q d col hcol)) (Blocks.bblock_at m c t q col hcol)) ?_
      refine congrArg₂ (· * ·) (Finset.sum_congr rfl fun r _ => congrArg₂ (· * ·) (Finset.sum_congr rfl fun d _ => congrArg₂ (· * ·)
        (Blocks.xblock_at m c t p d b s hbs) (Blocks.avblock_at m c t r d)) ?_) rfl
      refine (Blocks.bvblock_at m c t q r).trans ?_
      exact congrArg (fun o : Fin 1024 => (m ((c : Thread nD τ).loc main_arg6)) (ix2 o r)) (ho _).symm

/-- WHAT POINT t WRITES BACK is block t of the fused projection by rows. -/
theorem flushed_eq (c : Dev nD) (t : Fin cfg0.N) :
    (dats m 0 c).flushed 7 t = ((cfg0.win 7).blk t).view.read (Elt Ideal) (rows m c) := by
  show (cfg0.win 7).cut (grid0.coords t) ((dats m 0 c).after 7 t) = _
  rw [after0_7]
  funext y
  obtain ⟨-, -, -, -, -, -, -, -, -, -, -, -, -, e0, e1⟩ := Blocks.index_facts t
  refine staged_at m c t y (((cfg0.win 7).blk t).view.emb y) ?_ ?_
  · show win0_7.index t (0 : Fin 2) * 2048 + 1 * (y 0).val = t.val / 3 * 2048 + (y 0).val
    rw [e0]; omega
  · show win0_7.index t (1 : Fin 2) * 1024 + 1 * (y 1).val = t.val % 3 * 1024 + (y 1).val
    rw [e1]; omega

/-- An index of the result array is in point t's block iff each coordinate is in the block's range on its axis. -/
theorem mem_block (t : Fin cfg0.N) (i : S16384x3072.Idx) :
    i ∈ ((cfg0.win 7).blk t).view.set ↔ ∀ a : Fin 2, win0_7.index t a * S2048x1024.size a ≤ (i a).val ∧ (i a).val < win0_7.index t a * S2048x1024.size a + S2048x1024.size a := by
  show i ∈ ((View.whole main_v7).slice (win0_7.rect t)).set ↔ _
  rw [View.set_slice_whole, Rect.mem_set_unit]
  exact Iff.rfl

/-- The 24 blocks tile the array: entry (r, col) lies in the block of point 3·(r / 2048) + col / 1024. -/
theorem cover (i : S16384x3072.Idx) : ∃ t : Fin cfg0.N, (cfg0.win 7).flush t = true ∧ i ∈ ((cfg0.win 7).blk t).view.set := by
  have hr : (i 0).val < 16384 := (i 0).isLt
  have hc : (i 1).val < 3072 := (i 1).isLt
  have hN : cfg0.N = 24 := N_0
  let t : Fin cfg0.N := ⟨(i 0).val / 2048 * 3 + (i 1).val / 1024, by rw [hN]; omega⟩
  have ht : t.val = (i 0).val / 2048 * 3 + (i 1).val / 1024 := rfl
  obtain ⟨-, -, -, -, -, -, -, -, -, -, -, -, -, e0, e1⟩ := Blocks.index_facts t
  refine ⟨t, flush0_7 t, ?_⟩
  rw [mem_block]
  intro a
  match a with
  | ⟨0, _⟩ =>
    show win0_7.index t (0 : Fin 2) * 2048 ≤ (i 0).val ∧ (i 0).val < win0_7.index t (0 : Fin 2) * 2048 + 2048
    rw [e0, ht]; omega
  | ⟨1, _⟩ =>
    show win0_7.index t (1 : Fin 2) * 1024 ≤ (i 1).val ∧ (i 1).val < win0_7.index t (1 : Fin 2) * 1024 + 1024
    rw [e1, ht]; omega

/-- THE RESULT ARRAY of the region ends holding the fused projection by rows. -/
theorem final (c : Dev nD) : (dats m 0 c).arrAt 7 cfg0.N = rows m c :=
  (dats m 0 c).arrAt_eq_of_cover 7 (rows m c) (fun t _ => flushed_eq m c t) cover

/-- The rows regrouped as [4, 4096] are the fused projection: row b·4096 + s is (b, s). -/
theorem reshape_rows (c : Dev nD) :
    shapeCast S4x4096x3072 (rows m c) shapeCasts_S16384x3072_S4x4096x3072 = fused m c := by
  funext j
  have h0 : (j 0).val < 4 := (j 0).isLt
  have h1 : (j 1).val < 4096 := (j 1).isLt
  have h2 : (j 2).val < 3072 := (j 2).isLt
  refine (shapeCast_apply (rows m c) shapeCasts_S16384x3072_S4x4096x3072 j
    (ix2 (⟨(j 0).val * 4096 + (j 1).val, by omega⟩ : Fin 16384) (⟨(j 2).val, h2⟩ : Fin 3072)) ?_).trans ?_
  · rw [Shape.rowMajor_val_three, Shape.rowMajor_val_two]
    rfl
  · show qkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ = qkv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j
    refine congrArg _ (funext fun a => Fin.ext ?_)
    match a with
    | ⟨0, _⟩ => show ((j 0).val * 4096 + (j 1).val) / 4096 = (j 0).val; omega
    | ⟨1, _⟩ => show ((j 0).val * 4096 + (j 1).val) % 4096 = (j 1).val; omega
    | ⟨2, _⟩ => rfl

/-- The host line after the region leaves the fused projection in the program's result. -/
theorem tail_eq (c : Dev nD) :
    Pipeline.afterTail₀ cfgs (dats m) 0 (V0 m) [hostOps1] c main_v8 = fused m c := by
  have e : Pipeline.withArrays (cfgs 0).spec c (V0 m c) (fun w => (dats m 0 c).arrAt w (cfgs 0).N) (Proc.devRef .tc main_v7) = rows m c :=
    (Pipeline.withArrays_arr spec0 launch0.win.arr_inj c _ _ 7).trans (final m c)
  unfold Pipeline.afterTail₀
  show StableHlo.after hostOps1 _ (Proc.devRef .tc main_v8) = _
  after_results
  exact (congrArg (fun A : FVec Ideal S16384x3072 .f32 => shapeCast S4x4096x3072 A shapeCasts_S16384x3072_S4x4096x3072) e).trans (reshape_rows m c)

/-- THE RUN, READ: every weakly fair execution of the idealized kernel's program terminates with the result at the
    fused projection of the arguments' launch contents, the arguments unchanged. -/
theorem run : θ_run defs (onTc (τ := τ) (main (F := Ideal))) ⟨m, fun _ => 0, ρ⟩ fun r => ∀ c : Dev nD,
      r.2.mem ((c : Thread nD τ).loc main_v8) = fused m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).2 main_v8 (Pipeline.mem_restRefs_of main_v8 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Result

end
-- ==== Proof.RefSide.lean ====
import proofs.«102285_j1468878815513_1_alg».proof.Proof.Gen.ReferenceIdeal.Read
import proofs.«102285_j1468878815513_1_alg».proof.Proof.Spec
/-
  The reference's result is the fused projection, entry by entry over the extended reals. Its last operation
  joins three [4, 4096, 1024] bands along the last axis; an entry with column c lies in band c / 1024 at column
  c % 1024. Each band is a slice of the dense projection (two products' worth of index bookkeeping: the slice
  shifts the column back by the band's offset), and the outer bands add the scaled low-rank product, whose two
  contractions read x at (b, s, d), the first factor at (r, d) and the second at (column, r).
-/

noncomputable section

namespace Cert.ReferenceIdeal.RefSide

open Cert.ReferenceIdeal Cert.ReferenceIdeal.Gen Cert.ReferenceIdeal.Read
open Idealize.ShloMosaic Idealize.ShloMosaic.TcCoe Idealize.SL.Sem Idealize.ShloMosaic.ValueIdx
open Cert.LoraQkv (dense lowRank qkv scale)

/-- Two indices of a rank-3 shape with equal coordinates are equal. -/
theorem idx3_ext {d : Fin 3 → Nat} (u v : (⟨3, d⟩ : Shape).Idx) (h0 : (u 0).val = (v 0).val) (h1 : (u 1).val = (v 1).val)
    (h2 : (u 2).val = (v 2).val) : u = v :=
  funext fun a => Fin.ext (by
    match a with
    | ⟨0, _⟩ => exact h0
    | ⟨1, _⟩ => exact h1
    | ⟨2, _⟩ => exact h2)
theorem idx2_ext {d : Fin 2 → Nat} (u v : (⟨2, d⟩ : Shape).Idx) (h0 : (u 0).val = (v 0).val) (h1 : (u 1).val = (v 1).val) : u = v :=
  funext fun a => Fin.ext (by
    match a with
    | ⟨0, _⟩ => exact h0
    | ⟨1, _⟩ => exact h1)
theorem idx1_ext {d : Fin 1 → Nat} (u v : (⟨1, d⟩ : Shape).Idx) (h0 : (u 0).val = (v 0).val) : u = v :=
  funext fun a => Fin.ext (by
    match a with
    | ⟨0, _⟩ => exact h0)

variable (x0 : (⟨S4x4096x1024, .f32⟩ : BufTy).Contents (Elt Ideal)) (x1 : (⟨S3072x1024, .f32⟩ : BufTy).Contents (Elt Ideal))
  (x2 : (⟨S3072, .f32⟩ : BufTy).Contents (Elt Ideal))

/-- The dense projection plus bias, read at (b, s, c). -/
theorem dense_stage (i : S4x4096x3072.Idx) (b : Fin 4) (s : Fin 4096) (c : Fin 3072)
    (hb : (i 0).val = b.val) (hs : (i 1).val = s.val) (hc : (i 2).val = c.val) :
    val_main_v3 (F := Ideal) x0 x1 x2 i = dense x0 x1 x2 b s c := by
  rw [val_main_v3_apply]
  unfold dense
  refine congrArg₂ (· + ·) ?_ ?_
  · rw [val_main_v0_apply]
    exact Finset.sum_congr rfl fun d _ => congrArg₂ (· * ·) (congrArg x0 (idx3_ext _ _ hb hs rfl)) (congrArg x1 (idx2_ext _ _ hc rfl))
  · rw [val_main_v2_apply, val_main_v1_apply]
    exact congrArg x2 (idx1_ext _ _ hc)

/-- The scaled low-rank product through a pair (a, bm), read at (b, s, o): the reference's two contractions and
    its multiplication by the broadcast scale. -/
theorem lowRank_stage (a : (⟨S16x1024, .f32⟩ : BufTy).Contents (Elt Ideal)) (bm : (⟨S1024x16, .f32⟩ : BufTy).Contents (Elt Ideal))
    (i : S4x4096x1024.Idx) (b : Fin 4) (s : Fin 4096) (o : Fin 1024)
    (hb : (i 0).val = b.val) (hs : (i 1).val = s.val) (ho : (i 2).val = o.val) :
    val_main_v10 (F := Ideal) x0 a bm i = lowRank x0 a bm b s o := by
  rw [val_main_v10_apply]
  unfold lowRank
  refine congrArg₂ (· * ·) ?_ ?_
  · rw [val_main_v8_apply]
    refine Finset.sum_congr rfl fun r _ => congrArg₂ (· * ·) ?_ (congrArg bm (idx2_ext _ _ ho rfl))
    rw [val_main_v7_apply]
    exact Finset.sum_congr rfl fun d _ => congrArg₂ (· * ·) (congrArg x0 (idx3_ext _ _ hb hs rfl)) (congrArg a (idx2_ext _ _ rfl rfl))
  · rw [val_main_v9_apply, val_main_cst_apply]
    rfl

/-- The second pair's stages are the same operations under other names. -/
theorem lowRank_stage' (a : (⟨S16x1024, .f32⟩ : BufTy).Contents (Elt Ideal)) (bm : (⟨S1024x16, .f32⟩ : BufTy).Contents (Elt Ideal))
    (i : S4x4096x1024.Idx) (b : Fin 4) (s : Fin 4096) (o : Fin 1024)
    (hb : (i 0).val = b.val) (hs : (i 1).val = s.val) (ho : (i 2).val = o.val) :
    val_main_v15 (F := Ideal) x0 a bm i = lowRank x0 a bm b s o := by
  rw [val_main_v15_apply]
  unfold lowRank
  refine congrArg₂ (· * ·) ?_ ?_
  · rw [val_main_v13_apply]
    refine Finset.sum_congr rfl fun r _ => congrArg₂ (· * ·) ?_ (congrArg bm (idx2_ext _ _ ho rfl))
    rw [val_main_v12_apply]
    exact Finset.sum_congr rfl fun d _ => congrArg₂ (· * ·) (congrArg x0 (idx3_ext _ _ hb hs rfl)) (congrArg a (idx2_ext _ _ rfl rfl))
  · rw [val_main_v14_apply, val_main_cst_0_apply]
    rfl

variable (x3 : (⟨S16x1024, .f32⟩ : BufTy).Contents (Elt Ideal)) (x4 : (⟨S1024x16, .f32⟩ : BufTy).Contents (Elt Ideal))
  (x5 : (⟨S16x1024, .f32⟩ : BufTy).Contents (Elt Ideal)) (x6 : (⟨S1024x16, .f32⟩ : BufTy).Contents (Elt Ideal))

/-- The three bands the last operation joins along the column axis. -/
abbrev bands : List ((s : Shape) × (s.Idx → EReal)) :=
  [⟨S4x4096x1024, val_main_v11 (F := Ideal) x0 x1 x2 x3 x4⟩, ⟨S4x4096x1024, val_main_v5 (F := Ideal) x0 x1 x2⟩,
    ⟨S4x4096x1024, val_main_v16 (F := Ideal) x0 x1 x2 x5 x6⟩]

/-- THE REFERENCE'S RESULT is the fused projection of its arguments. -/
theorem result_eq : val_main_v17 (F := Ideal) x0 x1 x2 x3 x4 x5 x6 = qkv x0 x1 x2 x3 x4 x5 x6 := by
  funext j
  have hj2 : (j 2).val < 3072 := (j 2).isLt
  unfold val_main_v17 qkv
  by_cases h0 : (j 2).val < 1024
  · rw [dif_pos h0]
    refine (concatenate_apply_piece (t := S4x4096x3072) 2 (bands x0 x1 x2 x3 x4 x5 x6) concatenates_S4x4096x1024_S4x4096x1024_S4x4096x1024_S4x4096x3072_d2 j 0 (by show (0 : ℕ) < 3; omega) S4x4096x1024 (val_main_v11 (F := Ideal) x0 x1 x2 x3 x4) rfl rfl 0 rfl
      (ix3 (⟨(j 0).val, (j 0).isLt⟩ : Fin 4) (⟨(j 1).val, (j 1).isLt⟩ : Fin 4096) (⟨(j 2).val, h0⟩ : Fin 1024))
      (fun b hb => by
        match b with
        | ⟨0, _⟩ => rfl
        | ⟨1, _⟩ => rfl
        | ⟨2, _⟩ => exact absurd rfl hb)
      (by show 0 + (j 2).val = (j 2).val; omega)).trans ?_
    rw [val_main_v11_apply]
    refine congrArg₂ (· + ·) ?_ ?_
    · rw [val_main_v4_apply]
      exact dense_stage x0 x1 x2 _ _ _ _ rfl rfl rfl
    · exact lowRank_stage x0 x3 x4 _ _ _ _ rfl rfl rfl
  · rw [dif_neg h0]
    by_cases h1 : (j 2).val < 2048
    · rw [if_pos h1]
      refine (concatenate_apply_piece (t := S4x4096x3072) 2 (bands x0 x1 x2 x3 x4 x5 x6) concatenates_S4x4096x1024_S4x4096x1024_S4x4096x1024_S4x4096x3072_d2 j 1 (by show (1 : ℕ) < 3; omega) S4x4096x1024 (val_main_v5 (F := Ideal) x0 x1 x2) rfl rfl 1024 rfl
        (ix3 (⟨(j 0).val, (j 0).isLt⟩ : Fin 4) (⟨(j 1).val, (j 1).isLt⟩ : Fin 4096) (⟨(j 2).val - 1024, by omega⟩ : Fin 1024))
        (fun b hb => by
          match b with
          | ⟨0, _⟩ => rfl
          | ⟨1, _⟩ => rfl
          | ⟨2, _⟩ => exact absurd rfl hb)
        (by show 1024 + ((j 2).val - 1024) = (j 2).val; omega)).trans ?_
      rw [val_main_v5_apply]
      exact dense_stage x0 x1 x2 _ _ _ _ rfl rfl (by show 1024 + ((j 2).val - 1024) = (j 2).val; omega)
    · rw [if_neg h1]
      refine (concatenate_apply_piece (t := S4x4096x3072) 2 (bands x0 x1 x2 x3 x4 x5 x6) concatenates_S4x4096x1024_S4x4096x1024_S4x4096x1024_S4x4096x3072_d2 j 2 (by show (2 : ℕ) < 3; omega) S4x4096x1024 (val_main_v16 (F := Ideal) x0 x1 x2 x5 x6) rfl rfl 2048 rfl
        (ix3 (⟨(j 0).val, (j 0).isLt⟩ : Fin 4) (⟨(j 1).val, (j 1).isLt⟩ : Fin 4096) (⟨(j 2).val - 2048, by omega⟩ : Fin 1024))
        (fun b hb => by
          match b with
          | ⟨0, _⟩ => rfl
          | ⟨1, _⟩ => rfl
          | ⟨2, _⟩ => exact absurd rfl hb)
        (by show 2048 + ((j 2).val - 2048) = (j 2).val; omega)).trans ?_
      rw [val_main_v16_apply]
      refine congrArg₂ (· + ·) ?_ ?_
      · rw [val_main_v6_apply]
        exact dense_stage x0 x1 x2 _ _ _ _ rfl rfl (by show 2048 + ((j 2).val - 2048) = (j 2).val; omega)
      · exact lowRank_stage' x0 x5 x6 _ _ _ _ rfl rfl rfl

end Cert.ReferenceIdeal.RefSide

end
-- ==== Proof.lean ====
/-
  The certificate of the fused QKV projection with two low-rank updates: a 16384 × 1024 activation (x, flattened
  from [4, 4096, 1024]) against a [3072, 1024] weight with bias, where the first and the last 1024 output columns
  also receive ((x · aᵀ) · bmᵀ) · (1/16) through a rank-16 pair. The kernel computes one 2048 × 1024 output block per
  point of an 8 × 3 grid, the second grid axis choosing the column band and with it which stored value the body
  writes; the reference computes the dense projection whole, slices it into the three bands, adds the low-rank
  products to the outer two and joins them again.

  Over the extended reals both are the same function of the arguments, with the same sums in the same shape, so no
  algebraic law beyond reading each operation at an index is needed and the precondition is never opened: a change
  of float format is the identity, a matrix product into the zero block is the sum over the contracted axis on
  both sides, and the scale is the same f32 word in both programs.

  The two kernel programs' frames are the generated ones, the reference's frame is its generated run with the
  result dropped, the idealization rewrote nothing, and the value claim joins the kernel's result array read off its
  frame run with the reference's run read one operation at a time.
-/
import proofs.«102285_j1468878815513_1_alg».proof.Defs
import proofs.«102285_j1468878815513_1_alg».proof.Proof.Gen.Kernel
import proofs.«102285_j1468878815513_1_alg».proof.Proof.Gen.Kernel.Frame
import proofs.«102285_j1468878815513_1_alg».proof.Proof.Gen.KernelIdeal
import proofs.«102285_j1468878815513_1_alg».proof.Proof.Gen.KernelIdeal.Frame
import proofs.«102285_j1468878815513_1_alg».proof.Proof.Gen.ReferenceIdeal
import proofs.«102285_j1468878815513_1_alg».proof.Proof.Gen.ReferenceIdeal.Run
import proofs.«102285_j1468878815513_1_alg».proof.Proof.Gen.ReferenceIdeal.Read
import proofs.«102285_j1468878815513_1_alg».proof.Proof.Gen.Pre_finite_inputs
import proofs.«102285_j1468878815513_1_alg».proof.Proof.Spec
import proofs.«102285_j1468878815513_1_alg».proof.Proof.KernelResult
import proofs.«102285_j1468878815513_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the seven arguments, end with the fused projection of those
    arguments in their result. -/
theorem algebraic : Cert.algebraic_KernelIdeal_ReferenceIdeal := by
  intro m ρ m' ρ' _ hagree
  refine ⟨fun c => Cert.KernelIdeal.Result.fused m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v17_eq, Cert.ReferenceIdeal.RefSide.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
